-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_arg2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096 : Shape := ⟨1, ![4096]⟩
abbrev S10000x512 : Shape := ⟨2, ![10000, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S10000x512 : S_.BroadcastsInDim S10000x512 (![] : Fin 0 → Fin S10000x512.rank)
  reducesTo_S10000x512_S_d0_1 : S10000x512.ReducesTo [0, 1] S_

variable [Facts]

def fn {F : FTy → Type} [FloatOps F] (main_arg0 : FVec F S4096x512 .f32) (main_arg1 : IVec S4096 32) (main_arg2 : FVec F S10000x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S10000x512 .f32 := Host.absf main_arg2
  let main_cst_0 : FVec F S_ .f32 := constant S_ .f32 0x7F800000#32
  let main_v5 : FVec F S10000x512 .f32 := broadcastInDim S10000x512 ![] bcast_S_S10000x512 main_cst_0
  let main_v6 : IVec S10000x512 1 := cmpf .olt main_v4 main_v5
  let main_c_1 : IVec S_ 1 := constantI S_ 1 1#1
  let main_v7 : IVec S_ 1 := (fun x v => Host.reduce IntOp.andi x v reducesTo_S10000x512_S_d0_1 h_S_) main_v6 main_c_1
  let main_v8 : IVec S_ 1 := andi main_v3 main_v7
  main_v8
-- ==== Kernel.lean ====
abbrev S4096x512 : Shape := ⟨2, ![4096, 512]⟩
abbrev S4096 : Shape := ⟨1, ![4096]⟩
abbrev S10000x512 : Shape := ⟨2, ![10000, 512]⟩
abbrev S_ : Shape := ⟨0, ![]⟩
abbrev S4096x1 : Shape := ⟨2, ![4096, 1]⟩
abbrev S10000 : Shape := ⟨1, ![10000]⟩
abbrev S1x10000 : Shape := ⟨2, ![1, 10000]⟩
abbrev S4096x10000 : Shape := ⟨2, ![4096, 10000]⟩
abbrev S512x512 : Shape := ⟨2, ![512, 512]⟩
abbrev S1280x512 : Shape := ⟨2, ![1280, 512]⟩
abbrev S512x1 : Shape := ⟨2, ![512, 1]⟩
abbrev S1x1280 : Shape := ⟨2, ![1, 1280]⟩
abbrev S512x1280 : Shape := ⟨2, ![512, 1280]⟩

abbrev nBuf : Space → Nat
  | .hbm => 13
  | .vmem => 12
  | .smem => 0
  | _ => 0

abbrev bufTy : (tb : Table) → Fin (tcTables nBuf tb) → BufTy
  | .hbm, ⟨0, _⟩ => ⟨S4096x512, .f32⟩
  | .hbm, ⟨1, _⟩ => ⟨S4096, .i32⟩
  | .hbm, ⟨2, _⟩ => ⟨S10000x512, .f32⟩
  | .hbm, ⟨3, _⟩ => ⟨S4096x512, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S10000x512, .f32⟩
  | .hbm, ⟨8, _⟩ => ⟨S_, .f32⟩
  | .hbm, ⟨9, _⟩ => ⟨S10000, .f32⟩
  | .hbm, ⟨10, _⟩ => ⟨S1x10000, .f32⟩
  | .hbm, ⟨11, _⟩ => ⟨S4096x10000, .f32⟩
  | .hbm, ⟨12, _⟩ => ⟨S4096x10000, .f32⟩
  | .local _ .vmem, ⟨0, _⟩ => ⟨S512x512, .f32⟩
  | .local _ .vmem, ⟨1, _⟩ => ⟨S512x512, .f32⟩
  | .local _ .vmem, ⟨2, _⟩ => ⟨S1280x512, .f32⟩
  | .local _ .vmem, ⟨3, _⟩ => ⟨S1280x512, .f32⟩
  | .local _ .vmem, ⟨4, _⟩ => ⟨S512x1, .f32⟩
  | .local _ .vmem, ⟨5, _⟩ => ⟨S512x1, .f32⟩
  | .local _ .vmem, ⟨6, _⟩ => ⟨S1x1280, .f32⟩
  | .local _ .vmem, ⟨7, _⟩ => ⟨S1x1280, .f32⟩
  | .local _ .vmem, ⟨8, _⟩ => ⟨S512x1280, .f32⟩
  | .local _ .vmem, ⟨9, _⟩ => ⟨S512x1280, .f32⟩
  | .local _ .vmem, ⟨10, _⟩ => ⟨S512x1280, .f32⟩
  | .local _ .vmem, ⟨11, _⟩ => ⟨S512x1280, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1280x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  reducesTo_S10000x512_S10000_d1 : S10000x512.ReducesTo [1] S10000
  bcast_S10000_S1x10000_1 : S10000.BroadcastsInDim S1x10000 (![1] : Fin 1 → Fin S1x10000.rank)
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  inb_S1280x512_S1280x512_0_0 : ∀ a, (![0, 0] : Fin 2 → Nat) a + S1280x512.size a ≤ S1280x512.size a
  h_S1280x512 : 0 < S1280x512.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x1280_S1x1280_0_0 : ∀ a, (![0, 0] : Fin 2 → Nat) a + S1x1280.size a ≤ S1x1280.size a
  h_S1x1280 : 0 < S1x1280.numel
  shapeCasts_S1x1280_S1x1280 : S1x1280.ShapeCasts S1x1280
  broadcasts_S512x1_S512x1280 : S512x1.Broadcasts S512x1280
  broadcasts_S1x1280_S512x1280 : S1x1280.Broadcasts S512x1280
  inb_S512x1280_S512x1280_0_0 : ∀ a, (![0, 0] : Fin 2 → Nat) a + S512x1280.size a ≤ S512x1280.size a
  h_S512x1280 : 0 < S512x1280.numel
  dot_S512x512_S1280x512_S512x1280_1_1_0_0_n_n_wf : DotDims.WF S512x512 S1280x512 S512x1280 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x512.size a
  hwx0_0 : ∀ i : grid0.Coords, EltTy.bits .f32 = 32 ∨ (Rect.block (s := S4096x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1280x512.size a < S10000x512.size a
  hwx0_1 : ∀ i : grid0.Coords, EltTy.bits .f32 = 32 ∨ (Rect.unit (s := S10000x512) (fun a => cc0_transform_1 i a * S1280x512.size a) (fun a => (Pipeline.Clip.of (cc0_transform_1 i a) (S1280x512.size a) (S10000x512.size a)).extent (S1280x512.size a)) fun a => Pipeline.Clip.inb (Pipeline.Clip.ok_of (hstart0_1 i a))).WholeWords (EltTy.packing .f32)
  hwxs0_1 : ∀ i : grid0.Coords, EltTy.bits .f32 = 32 ∨ (Rect.unit (s := S1280x512) (fun _ => 0) (fun a => (Pipeline.Clip.of (cc0_transform_1 i a) (S1280x512.size a) (S10000x512.size a)).extent (S1280x512.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .f32 = 32 ∨ (Rect.block (s := S4096x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1x1280.size a < S1x10000.size a
  hwx0_3 : ∀ i : grid0.Coords, EltTy.bits .f32 = 32 ∨ (Rect.unit (s := S1x10000) (fun a => cc0_transform_3 i a * S1x1280.size a) (fun a => (Pipeline.Clip.of (cc0_transform_3 i a) (S1x1280.size a) (S1x10000.size a)).extent (S1x1280.size a)) fun a => Pipeline.Clip.inb (Pipeline.Clip.ok_of (hstart0_3 i a))).WholeWords (EltTy.packing .f32)
  hwxs0_3 : ∀ i : grid0.Coords, EltTy.bits .f32 = 32 ∨ (Rect.unit (s := S1x1280) (fun _ => 0) (fun a => (Pipeline.Clip.of (cc0_transform_3 i a) (S1x1280.size a) (S1x10000.size a)).extent (S1x1280.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S512x1280.size a < S4096x10000.size a
  hwx0_4 : ∀ i : grid0.Coords, EltTy.bits .f32 = 32 ∨ (Rect.unit (s := S4096x10000) (fun a => cc0_transform_4 i a * S512x1280.size a) (fun a => (Pipeline.Clip.of (cc0_transform_4 i a) (S512x1280.size a) (S4096x10000.size a)).extent (S512x1280.size a)) fun a => Pipeline.Clip.inb (Pipeline.Clip.ok_of (hstart0_4 i a))).WholeWords (EltTy.packing .f32)
  hwxs0_4 : ∀ i : grid0.Coords, EltTy.bits .f32 = 32 ∨ (Rect.unit (s := S512x1280) (fun _ => 0) (fun a => (Pipeline.Clip.of (cc0_transform_4 i a) (S512x1280.size a) (S4096x10000.size a)).extent (S512x1280.size a)) fun a => (Nat.zero_add _).trans_le (Pipeline.Clip.extent_le (Pipeline.Clip.ok_of (hstart0_4 i a)))).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S512x1280.size a < S4096x10000.size a
  hwx0_5 : ∀ i : grid0.Coords, EltTy.bits .f32 = 32 ∨ (Rect.unit (s := S4096x10000) (fun a => cc0_transform_5 i a * S512x1280.size a) (fun a => (Pipeline.Clip.of (cc0_transform_5 i a) (S512x1280.size a) (S4096x10000.size a)).extent (S512x1280.size a)) fun a => Pipeline.Clip.inb (Pipeline.Clip.ok_of (hstart0_5 i a))).WholeWords (EltTy.packing .f32)
  hwxs0_5 : ∀ i : grid0.Coords, EltTy.bits .f32 = 32 ∨ (Rect.unit (s := S512x1280) (fun _ => 0) (fun a => (Pipeline.Clip.of (cc0_transform_5 i a) (S512x1280.size a) (S4096x10000.size a)).extent (S512x1280.size a)) fun a => (Nat.zero_add _).trans_le (Pipeline.Clip.extent_le (Pipeline.Clip.ok_of (hstart0_5 i a)))).WholeWords (EltTy.packing .f32)

variable [Facts₀]

def dot_S512x512_S1280x512_S512x1280_1_1_0_0_n_n : DotDims S512x512 S1280x512 S512x1280 where
  lhsContracting := [1]
  rhsContracting := [1]
  lhsNonContracting := [0]
  rhsNonContracting := [0]
  lhsBatch := []
  rhsBatch := []
  wf := dot_S512x512_S1280x512_S512x1280_1_1_0_0_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpecClip (Memref.whole main_arg2) S1280x512.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v2) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpecClip (Memref.whole main_v5) S1x1280.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpecClip (Memref.whole main_v6_0) S512x1280.size cc0_transform_4 reads0_4 true false 2 stage0_4 sem0_4
    hrank0 hreads0_4 hstart0_4 nbuf0_4 (Memref.isWhole_whole _) hwx0_4 hwxs0_4 hstage0_4

abbrev win0_5 : Pipeline.Window sig grid0 :=
  Pipeline.Window.ofSpecClip (Memref.whole main_v6_1) S512x1280.size cc0_transform_5 reads0_5 true false 2 stage0_5 sem0_5
    hrank0 hreads0_5 hstart0_5 nbuf0_5 (Memref.isWhole_whole _) hwx0_5 hwxs0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x512 : Shape := ⟨2, ![4096, 512]⟩
abbrev S4096 : Shape := ⟨1, ![4096]⟩
abbrev S10000x512 : Shape := ⟨2, ![10000, 512]⟩
abbrev S_ : Shape := ⟨0, ![]⟩
abbrev S4096x1 : Shape := ⟨2, ![4096, 1]⟩
abbrev S10000 : Shape := ⟨1, ![10000]⟩
abbrev S1x10000 : Shape := ⟨2, ![1, 10000]⟩
abbrev S4096x10000 : Shape := ⟨2, ![4096, 10000]⟩

abbrev nBuf : Space → Nat
  | .hbm => 32
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096, .i32⟩
  | .hbm, ⟨2, _⟩ => ⟨S10000x512, .f32⟩
  | .hbm, ⟨3, _⟩ => ⟨S4096x512, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S10000x512, .f32⟩
  | .hbm, ⟨8, _⟩ => ⟨S_, .f32⟩
  | .hbm, ⟨9, _⟩ => ⟨S10000, .f32⟩
  | .hbm, ⟨10, _⟩ => ⟨S1x10000, .f32⟩
  | .hbm, ⟨11, _⟩ => ⟨S4096x10000, .f32⟩
  | .hbm, ⟨12, _⟩ => ⟨S4096x10000, .f32⟩
  | .hbm, ⟨13, _⟩ => ⟨S4096x10000, .f32⟩
  | .hbm, ⟨14, _⟩ => ⟨S4096x10000, .f32⟩
  | .hbm, ⟨15, _⟩ => ⟨S_, .f32⟩
  | .hbm, ⟨16, _⟩ => ⟨S4096x10000, .f32⟩
  | .hbm, ⟨17, _⟩ => ⟨S4096x10000, .f32⟩
  | .hbm, ⟨18, _⟩ => ⟨S4096x10000, .f32⟩
  | .hbm, ⟨19, _⟩ => ⟨S_, .f32⟩
  | .hbm, ⟨20, _⟩ => ⟨S4096x10000, .f32⟩
  | .hbm, ⟨21, _⟩ => ⟨S4096x10000, .f32⟩
  | .hbm, ⟨22, _⟩ => ⟨S_, .f32⟩
  | .hbm, ⟨23, _⟩ => ⟨S4096x10000, .f32⟩
  | .hbm, ⟨24, _⟩ => ⟨S4096x10000, .f32⟩
  | .hbm, ⟨25, _⟩ => ⟨S4096x10000, .f32⟩
  | .hbm, ⟨26, _⟩ => ⟨S_, .f32⟩
  | .hbm, ⟨27, _⟩ => ⟨S4096x10000, .f32⟩
  | .hbm, ⟨28, _⟩ => ⟨S4096x10000, .f32⟩
  | .hbm, ⟨29, _⟩ => ⟨S_, .f32⟩
  | .hbm, ⟨30, _⟩ => ⟨S4096x10000, .f32⟩
  | .hbm, ⟨31, _⟩ => ⟨S4096x10000, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  reducesTo_S10000x512_S10000_d1 : S10000x512.ReducesTo [1] S10000
  bcast_S10000_S1x10000_1 : S10000.BroadcastsInDim S1x10000 (![1] : Fin 1 → Fin S1x10000.rank)
  bcast_S4096x1_S4096x10000_0_1 : S4096x1.BroadcastsInDim S4096x10000 (![0, 1] : Fin 2 → Fin S4096x10000.rank)
  bcast_S1x10000_S4096x10000_0_1 : S1x10000.BroadcastsInDim S4096x10000 (![0, 1] : Fin 2 → Fin S4096x10000.rank)
  bcast_S_S4096x10000 : S_.BroadcastsInDim S4096x10000 (![] : Fin 0 → Fin S4096x10000.rank)
  dot_S4096x512_S10000x512_S4096x10000_1_1_0_0_n_n_wf : DotDims.WF S4096x512 S10000x512 S4096x10000 [1] [1] [0] [0] [] []

variable [Facts₀]

def dot_S4096x512_S10000x512_S4096x10000_1_1_0_0_n_n : DotDims S4096x512 S10000x512 S4096x10000 where
  lhsContracting := [1]
  rhsContracting := [1]
  lhsNonContracting := [0]
  rhsNonContracting := [0]
  lhsBatch := []
  rhsBatch := []
  wf := dot_S4096x512_S10000x512_S4096x10000_1_1_0_0_n_n_wf

class Facts : Prop extends Facts₀ where

variable [Facts]
-- ==== Proof.BodyBits.lean ====
/-
  One run of the kernel's body on six whole staging buffers.

  Whatever the four input buffers hold (`x0` … `x3`) and whatever the two output buffers hold, the body reads the
  four inputs whole, reads each output once without using what it read, and stores one and the same block into both
  outputs, whole: the block `k0_pay1 x0 x1 x2 x3` that the generated skeleton names. The inputs are left as found.
  Nothing here depends on the float instance.
-/
import proofs.«126104_j77369540870222_1_alg».proof.Proof.Gen.Kernel.Launch
import proofs.«126104_j77369540870222_1_alg».proof.Proof.Gen.Kernel.Skeleton
import proofs.«126104_j77369540870222_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Both coordinates of every access are zero. -/
theorem offsets_zero : (![0, 0] : Fin 2 → Nat) = fun _ => 0 := funext fun a => by fin_cases a <;> rfl

/-- One piece laid over the whole output block at zero offsets holds every index of the block. -/
theorem whole_block_covers (w : S512x1280.Idx → Elt F .f32) (y : S512x1280.Idx) :
    ∃ p ∈ ([⟨Rect.unit ![0, 0] S512x1280.size inb_S512x1280_S512x1280_0_0, w⟩] : List (View.Piece (Elt F) S512x1280 .f32)),
      y ∈ p.1.set :=
  ⟨_, List.mem_singleton_self _, View.mem_set_unit_zero offsets_zero inb_S512x1280_S512x1280_0_0 y⟩

/-- Reading an output back after its one whole store, over any earlier contents `g`: the stored block covers every
    index, so the read is the block; and the block was computed from whole loads of the four inputs, each of which
    reads its buffer's contents as they stand. -/
theorem whole_store_reads {arg2 : Memref sig .tc .vmem S512x512 .f32} {arg3 : Memref sig .tc .vmem S1280x512 .f32}
    {arg4 : Memref sig .tc .vmem S512x1 .f32} {arg5 : Memref sig .tc .vmem S1x1280 .f32}
    (out : Memref sig .tc .vmem S512x1280 .f32)
    (f0 : arg2.view.ty.Contents (Elt F)) (f1 : arg3.view.ty.Contents (Elt F))
    (f2 : arg4.view.ty.Contents (Elt F)) (f3 : arg5.view.ty.Contents (Elt F))
    (g : out.view.ty.Contents (Elt F)) :
    out.view.read (Elt F) (out.view.writes (Elt F) g
      [⟨Rect.unit ![0, 0] S512x1280.size inb_S512x1280_S512x1280_0_0,
        k0_pay1
          (arg2.view.readAt (Elt F) (Rect.unit ![0, 0] S512x512.size inb_S512x512_S512x512_0_0).toLoadRect f0)
          (arg3.view.readAt (Elt F) (Rect.unit ![0, 0] S1280x512.size inb_S1280x512_S1280x512_0_0).toLoadRect f1)
          (arg4.view.readAt (Elt F) (Rect.unit ![0, 0] S512x1.size inb_S512x1_S512x1_0_0).toLoadRect f2)
          (arg5.view.readAt (Elt F) (Rect.unit ![0, 0] S1x1280.size inb_S1x1280_S1x1280_0_0).toLoadRect f3)⟩])
      = k0_pay1 (arg2.view.read (Elt F) f0) (arg3.view.read (Elt F) f1) (arg4.view.read (Elt F) f2)
          (arg5.view.read (Elt F) f3) := by
  rw [View.read_writes_eq_canon _ _ _ (whole_block_covers _),
    View.canon_unit_zero offsets_zero]
  simp only [View.readAt_eq_ld, View.ld_unit_zero (S := S512x512) offsets_zero,
    View.ld_unit_zero (S := S1280x512) offsets_zero, View.ld_unit_zero (S := S512x1) offsets_zero,
    View.ld_unit_zero (S := S1x1280) offsets_zero]

/-- The body's triple: the four inputs kept, both outputs left at the skeleton's payload of the four inputs. -/
theorem sound_kernel (c : Dev nD) (E : Set ℕ) (i : grid0.Coords)
    (arg2 : Memref sig .tc .vmem S512x512 .f32) (harg2 : arg2.IsWhole)
    (arg3 : Memref sig .tc .vmem S1280x512 .f32) (harg3 : arg3.IsWhole)
    (arg4 : Memref sig .tc .vmem S512x1 .f32) (harg4 : arg4.IsWhole)
    (arg5 : Memref sig .tc .vmem S1x1280 .f32) (harg5 : arg5.IsWhole)
    (arg6 : Memref sig .tc .vmem S512x1280 .f32) (harg6 : arg6.IsWhole)
    (arg7 : Memref sig .tc .vmem S512x1280 .f32) (harg7 : arg7.IsWhole)
    (x0 : Vec F S512x512 .f32) (x1 : Vec F S1280x512 .f32) (x2 : Vec F S512x1 .f32) (x3 : Vec F S1x1280 .f32)
    (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (k0_pay1 x0 x1 x2 x3)
            ∗ owns (c : Thread nD τ) arg7 fullShare (k0_pay1 x0 x1 x2 x3)) -∗ K ⟨⟩))
      ⊢ wp frame (wpE (defs₀ (F := F)) Variants.none c none) E
          (cc0__kmetric_kernel i arg2 harg2 arg3 harg3 arg4 harg4 arg5 harg5 arg6 harg6 arg7 harg7) K := by
  simp only [cc0__kmetric_kernel_eq_skeleton]; unfold cc0__kmetric_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact whole_store_reads _ f0 f1 f2 f3 _
  · iexists _; isplitr
    swap; · iexact H5
    ipureintro
    exact whole_store_reads _ f0 f1 f2 f3 _

end Cert.Kernel.Body

end
-- ==== Proof.FrameBits.lean ====
/-
  The word-level kernel program runs to the end, faults nowhere and leaves its three arguments as they were.

  At the word level the matrix product is an uninterpreted function of its WHOLE operands, and two of the input
  windows are cut at their array's end, so their staging buffers carry a tail of words nothing names: what the body
  leaves in the output buffers cannot be named. This claim does not read it. The proof data is therefore relational and
  says nothing of any staging buffer (any contents may be found, any may be left); the body runs from any contents
  (its loads and stores are whole-buffer accesses, it takes no branch and computes no address from data); an input
  array is never written, and the one argument no window stages bypasses the region.
-/
import proofs.«126104_j77369540870222_1_alg».proof.Proof.BodyBits
import proofs.«126104_j77369540870222_1_alg».proof.Proof.Gen.Kernel.Frame

set_option maxRecDepth 16384

noncomputable section

namespace Cert.Kernel.FrameBits

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- What the proof says of one core's run of the region. Each windowed array starts at what the host operations
    before the region left in it. Of a staging buffer nothing is said: whatever the body was handed there, it may
    leave anything. Between points the core keeps only its scratch and its generator register, at contents nobody
    names; every array is lent whole; nothing is owed to another core. -/
def rdats (_ : Fin 1) (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- The arrays at entry are the region-entry contents (the structure's field projected, the fold over the host
    operations left folded). -/
theorem A_eq (c : Dev nD) (w : Fin cfg0.W) : (rdats m 0 c).A w = V m c (Pipeline.arrRef spec0 w) := by
  dsimp only [rdats]

/-- Every array is held whole: an output outright, an input at the full share the data lend. -/
theorem share_eq (c : Dev nD) (w : Fin cfg0.W) : (rdats m 0 c).share w = fullShare := by
  unfold RDat.share; split <;> rfl

/-! ## The body at a generic point -/

/-- The body at any point, from ANY contents of its six current buffers. The four inputs come back as they were
    found and the two outputs at one block computed from the inputs; the relation asks nothing of either, so each
    buffer is handed back at the contents it then has. The invariant and what the core owes pass through unread. -/
theorem sound_body (c : Dev nD) (t : Fin cfg0.N) (Y : (w : Fin cfg0.W) → (cfg0.win w).block.Idx → Elt F (cfg0.win w).elt) :
    iprop((rdats m 0 c).Φ t.castSucc ∗ (rdats m 0 c).owesAt () t.castSucc
        ∗ owns (c : Thread nD τ) (st0_0 t) fullShare (Y 0) ∗ owns (c : Thread nD τ) (st0_1 t) fullShare (Y 1)
        ∗ owns (c : Thread nD τ) (st0_2 t) fullShare (Y 2) ∗ owns (c : Thread nD τ) (st0_3 t) fullShare (Y 3)
        ∗ owns (c : Thread nD τ) (st0_4 t) fullShare (Y 4) ∗ owns (c : Thread nD τ) (st0_5 t) fullShare (Y 5))
      ⊢ wp frame (wpE (defs₀ (F := F)) Variants.none c none) Set.univ (bodyAt0 t) (fun _ =>
          iprop((rdats m 0 c).Φ t.succ ∗ (rdats m 0 c).owesAt () t.succ
            ∗ (∃ X, ⌜(rdats m 0 c).after 0 t (Y 0) X⌝ ∗ owns (c : Thread nD τ) (st0_0 t) fullShare X)
            ∗ (∃ X, ⌜(rdats m 0 c).after 1 t (Y 1) X⌝ ∗ owns (c : Thread nD τ) (st0_1 t) fullShare X)
            ∗ (∃ X, ⌜(rdats m 0 c).after 2 t (Y 2) X⌝ ∗ owns (c : Thread nD τ) (st0_2 t) fullShare X)
            ∗ (∃ X, ⌜(rdats m 0 c).after 3 t (Y 3) X⌝ ∗ owns (c : Thread nD τ) (st0_3 t) fullShare X)
            ∗ (∃ X, ⌜(rdats m 0 c).after 4 t (Y 4) X⌝ ∗ owns (c : Thread nD τ) (st0_4 t) fullShare X)
            ∗ (∃ X, ⌜(rdats m 0 c).after 5 t (Y 5) X⌝ ∗ owns (c : Thread nD τ) (st0_5 t) fullShare X))) := by
  unfold bodyAt0
  rw [show (rdats m 0 c).Φ t.succ = (rdats m 0 c).Φ t.castSucc from rfl,
    show (rdats m 0 c).owesAt () t.succ = (rdats m 0 c).owesAt () t.castSucc from rfl]
  iintro ⟨HΦ, Ho, H0, H1, H2, H3, H4, H5⟩
  iapply (Cert.Kernel.Body.sound_kernel c Set.univ (grid0.coords t) _ _ _ _ _ _ _ _ _ _ _ _ (Y 0) (Y 1) (Y 2) (Y 3) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]
  · iexists (Y 0); isplitr; · ipureintro; trivial
    iexact H0
  isplitl [H1]
  · iexists (Y 1); isplitr; · ipureintro; trivial
    iexact H1
  isplitl [H2]
  · iexists (Y 2); isplitr; · ipureintro; trivial
    iexact H2
  isplitl [H3]
  · iexists (Y 3); isplitr; · ipureintro; trivial
    iexact H3
  isplitl [H4]
  · iexists (k0_pay1 (Y 0) (Y 1) (Y 2) (Y 3)); isplitr; · ipureintro; trivial
    iexact H4
  · iexists (k0_pay1 (Y 0) (Y 1) (Y 2) (Y 3)); isplitr; · ipureintro; trivial
    iexact H5

/-- The library's body obligation of the relational data, at every point: what the buffers may hold there is not
    used. -/
theorem body_obligation (c : Dev nD) : (rdats m 0 c).BodyObligation (defs₀ (F := F)) Variants.none () Set.univ := fun t Y _ => by
  rw [bigSep_W0, bigSep_W0]
  exact sound_body m c t Y

/-! ## The run and the frame -/

set_option backward.isDefEq.respectTransparency.types false in
/-- From any memory with zero counters every weakly fair execution of the program on the TensorCores terminates, and
    at the end every windowed array holds contents it may hold after the write-backs (an input: what it held at the
    region's entry) and every other unscoped buffer what it held at the region's entry. -/
theorem run_main : θ_run defs (onTc (τ := τ) (main (F := F))) (s₀ m ρ) (Pipeline.RDat.FramePost cfg0 (rdats m 0) (V m)) :=
  Pipeline.RDat.θ_run_frame cfgs (0 : Fin 1) launch0 defs₀ Variants.none (rdats m 0) m ρ main
    (hbody := body_obligation m) (hshare := share_eq m)
    (howed := fun _ _ => rfl) (V := V m) (hmain := hmain m Variants.none) (hA := A_eq m) (hΦ := fun _ _ => rfl)

/-- The frame, at any float instance. The first and the third argument are the arrays of input windows 0 and 1:
    never written, each ends at its entry contents, which no host operation before the region touched. The second
    argument is staged by no window and bypasses the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(Pipeline.RDat.FramePost.arr_in h c 0 rfl).trans ((A_eq m c 0).trans (V_main_arg0 m c)),
      ((h c).2 main_arg1 (Pipeline.mem_restRefs_of main_arg1 (by decide) (by decide))).trans (V_main_arg1 m c),
      (Pipeline.RDat.FramePost.arr_in h c 1 rfl).trans ((A_eq m c 1).trans (V_main_arg2 m c))⟩) (run_main m ρ)

end Cert.Kernel.FrameBits

end
-- ==== Proof.Body.lean ====
/-
  One run of the kernel's body on six whole staging buffers.

  Whatever the four input buffers hold (`x0` … `x3`) and whatever the two output buffers hold, the body reads the
  four inputs whole, reads each output once without using what it read, and stores one and the same block into both
  outputs, whole: the block `k0_pay1 x0 x1 x2 x3` that the generated skeleton names. The inputs are left as found.
  Nothing here depends on the float instance.
-/
import proofs.«126104_j77369540870222_1_alg».proof.Proof.Gen.KernelIdeal.Launch
import proofs.«126104_j77369540870222_1_alg».proof.Proof.Gen.KernelIdeal.Skeleton
import proofs.«126104_j77369540870222_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Both coordinates of every access are zero. -/
theorem offsets_zero : (![0, 0] : Fin 2 → Nat) = fun _ => 0 := funext fun a => by fin_cases a <;> rfl

/-- One piece laid over the whole output block at zero offsets holds every index of the block. -/
theorem whole_block_covers (w : S512x1280.Idx → Elt F .f32) (y : S512x1280.Idx) :
    ∃ p ∈ ([⟨Rect.unit ![0, 0] S512x1280.size inb_S512x1280_S512x1280_0_0, w⟩] : List (View.Piece (Elt F) S512x1280 .f32)),
      y ∈ p.1.set :=
  ⟨_, List.mem_singleton_self _, View.mem_set_unit_zero offsets_zero inb_S512x1280_S512x1280_0_0 y⟩

/-- Reading an output back after its one whole store, over any earlier contents `g`: the stored block covers every
    index, so the read is the block; and the block was computed from whole loads of the four inputs, each of which
    reads its buffer's contents as they stand. -/
theorem whole_store_reads {arg2 : Memref sig .tc .vmem S512x512 .f32} {arg3 : Memref sig .tc .vmem S1280x512 .f32}
    {arg4 : Memref sig .tc .vmem S512x1 .f32} {arg5 : Memref sig .tc .vmem S1x1280 .f32}
    (out : Memref sig .tc .vmem S512x1280 .f32)
    (f0 : arg2.view.ty.Contents (Elt F)) (f1 : arg3.view.ty.Contents (Elt F))
    (f2 : arg4.view.ty.Contents (Elt F)) (f3 : arg5.view.ty.Contents (Elt F))
    (g : out.view.ty.Contents (Elt F)) :
    out.view.read (Elt F) (out.view.writes (Elt F) g
      [⟨Rect.unit ![0, 0] S512x1280.size inb_S512x1280_S512x1280_0_0,
        k0_pay1
          (arg2.view.readAt (Elt F) (Rect.unit ![0, 0] S512x512.size inb_S512x512_S512x512_0_0).toLoadRect f0)
          (arg3.view.readAt (Elt F) (Rect.unit ![0, 0] S1280x512.size inb_S1280x512_S1280x512_0_0).toLoadRect f1)
          (arg4.view.readAt (Elt F) (Rect.unit ![0, 0] S512x1.size inb_S512x1_S512x1_0_0).toLoadRect f2)
          (arg5.view.readAt (Elt F) (Rect.unit ![0, 0] S1x1280.size inb_S1x1280_S1x1280_0_0).toLoadRect f3)⟩])
      = k0_pay1 (arg2.view.read (Elt F) f0) (arg3.view.read (Elt F) f1) (arg4.view.read (Elt F) f2)
          (arg5.view.read (Elt F) f3) := by
  rw [View.read_writes_eq_canon _ _ _ (whole_block_covers _),
    View.canon_unit_zero offsets_zero]
  simp only [View.readAt_eq_ld, View.ld_unit_zero (S := S512x512) offsets_zero,
    View.ld_unit_zero (S := S1280x512) offsets_zero, View.ld_unit_zero (S := S512x1) offsets_zero,
    View.ld_unit_zero (S := S1x1280) offsets_zero]

/-- The body's triple: the four inputs kept, both outputs left at the skeleton's payload of the four inputs. -/
theorem sound_kernel (c : Dev nD) (E : Set ℕ) (i : grid0.Coords)
    (arg2 : Memref sig .tc .vmem S512x512 .f32) (harg2 : arg2.IsWhole)
    (arg3 : Memref sig .tc .vmem S1280x512 .f32) (harg3 : arg3.IsWhole)
    (arg4 : Memref sig .tc .vmem S512x1 .f32) (harg4 : arg4.IsWhole)
    (arg5 : Memref sig .tc .vmem S1x1280 .f32) (harg5 : arg5.IsWhole)
    (arg6 : Memref sig .tc .vmem S512x1280 .f32) (harg6 : arg6.IsWhole)
    (arg7 : Memref sig .tc .vmem S512x1280 .f32) (harg7 : arg7.IsWhole)
    (x0 : Vec F S512x512 .f32) (x1 : Vec F S1280x512 .f32) (x2 : Vec F S512x1 .f32) (x3 : Vec F S1x1280 .f32)
    (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (k0_pay1 x0 x1 x2 x3)
            ∗ owns (c : Thread nD τ) arg7 fullShare (k0_pay1 x0 x1 x2 x3)) -∗ K ⟨⟩))
      ⊢ wp frame (wpE (defs₀ (F := F)) Variants.none c none) E
          (cc0__kmetric_kernel i arg2 harg2 arg3 harg3 arg4 harg4 arg5 harg5 arg6 harg6 arg7 harg7) K := by
  simp only [cc0__kmetric_kernel_eq_skeleton]; unfold cc0__kmetric_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact whole_store_reads _ f0 f1 f2 f3 _
  · iexists _; isplitr
    swap; · iexact H5
    ipureintro
    exact whole_store_reads _ f0 f1 f2 f3 _

end Cert.KernelIdeal.Body

end
-- ==== Proof.Spec.lean ====
/-
  The function both programs compute, over the extended reals.

  For a feature matrix `x` (4096 rows of 512 entries) and a weight matrix `w` (10000 rows of 512 entries), entry
  (b, c) of the result is

      exp (κ · max ((‖x_b‖² + ‖w_c‖²) − 2 · ⟨x_b, w_c⟩) 0)

  where ‖·‖² is the sum of the squares of a row's entries, ⟨·,·⟩ the sum of the products of two rows' entries,
  and κ the single-precision number nearest −1/100. The three float literals (κ, 2 and the 0 that starts each
  sum and bounds the maximum) stay the bit patterns the programs spell: the same pattern stands on both sides of
  every comparison made here, so none of them is ever evaluated. The one literal that IS evaluated is the
  reference's closing factor 1.0, which is the number one, the unit of the product on the extended reals.
-/
import Idealize.ShloMosaic.Lib.ValueIdx
import Idealize.ShloMosaic.PureOps.Ideal.Laws

noncomputable section

open scoped BigOperators

namespace Cert.Spec

open Idealize.ShloMosaic Idealize.ShloMosaic.ValueIdx

/-- The pattern of `+0.0`, as the extended real it denotes (kept unevaluated). -/
abbrev z32 : EReal := Ideal.ofBits .f32 0x00000000#32
/-- The pattern of `2.0`. -/
abbrev two32 : EReal := Ideal.ofBits .f32 0x40000000#32
/-- The pattern of the single-precision number nearest `-0.01`. -/
abbrev kap32 : EReal := Ideal.ofBits .f32 0xBC23D70A#32

/-- The sum of the squares of row `a` of an `n × 512` matrix, started from the zero pattern as both programs start it. -/
def sqRow {n : Nat} (x : (⟨2, ![n, 512]⟩ : Shape).Idx → EReal) (a : Fin n) : EReal :=
  z32 + ∑ k : Fin 512, x (ix2 a k) * x (ix2 a k)

/-- The inner product of row `b` of `x` with row `c` of `w`. -/
def crossRow {n n' : Nat} (x : (⟨2, ![n, 512]⟩ : Shape).Idx → EReal) (w : (⟨2, ![n', 512]⟩ : Shape).Idx → EReal)
    (b : Fin n) (c : Fin n') : EReal :=
  ∑ k : Fin 512, x (ix2 b k) * w (ix2 c k)

/-- The scalar formula: from a row's squared norm `f2`, another row's squared norm `w2` and their inner product
    `cr`, the radial kernel value `exp (κ · max ((f2 + w2) − 2 · cr) 0)`. -/
def rbf (f2 w2 cr : EReal) : EReal :=
  Ideal.exp (kap32 * max ((f2 + w2) - two32 * cr) z32)

/-- The whole result: entry (b, c) is the scalar formula of row b of `x` and row c of `w`. -/
def G (x : (⟨2, ![4096, 512]⟩ : Shape).Idx → EReal) (w : (⟨2, ![10000, 512]⟩ : Shape).Idx → EReal) :
    (⟨2, ![4096, 10000]⟩ : Shape).Idx → EReal :=
  fun i => rbf (sqRow x ⟨(i 0).val, (i 0).isLt⟩) (sqRow w ⟨(i 1).val, (i 1).isLt⟩)
    (crossRow x w ⟨(i 0).val, (i 0).isLt⟩ ⟨(i 1).val, (i 1).isLt⟩)

theorem G_ix2 (x : (⟨2, ![4096, 512]⟩ : Shape).Idx → EReal) (w : (⟨2, ![10000, 512]⟩ : Shape).Idx → EReal)
    (b : Fin 4096) (c : Fin 10000) :
    G x w (ix2 b c) = rbf (sqRow x b) (sqRow w c) (crossRow x w b c) := rfl

/-- The pattern of `1.0` denotes the number one. -/
theorem ofBits_one32 : Ideal.ofBits .f32 0x3F800000#32 = 1 := by
  simp [Ideal.ofBits, Ideal.ieee, -EReal.coe_mul]; norm_num

end Cert.Spec

end
-- ==== Proof.LibDot.lean ====
/-
  Matrix products with ONE contracted axis and no batch axis, read at an entry at the ideal values, for any dimension
  numbers record whose axis lists are the stated ones (a printed record satisfies each hypothesis by `rfl`).

  With the accumulator the zero constant, the product at entry (a, b) is the sum over the contracted coordinate `c` of
  the left operand's entry times the right operand's entry; which coordinate of each operand `c` runs over is what the
  three forms below differ in: rows by columns (`_10`), the left operand transposed against a right operand contracted
  on its last axis (`_01`), and both operands contracted on their first axis (`_00`).
  Also: a non-contracting axis of either operand reads the output index, and the bf16 zero pattern is the real zero.
-/
import Idealize.ShloMosaic.Lib.ValueIdx
import Idealize.ShloMosaic.PureOps.Ideal.Laws

noncomputable section

open scoped BigOperators

namespace Cert.LibDot

open Idealize.ShloMosaic Idealize.ShloMosaic.ValueIdx

/-- The bf16 pattern of all zero bits is the number zero. -/
theorem ofBits_zero_bf16 : Ideal.ofBits .bf16 0x0000#16 = 0 := by simp [Ideal.ofBits, Ideal.ieee]

section Axes
variable {sl sr so : Shape} (d : DotDims sl sr so)

/-- With no batch axis and one non-contracting axis on the left, that axis of the left operand reads the output's
    first coordinate. -/
theorem lhsIdx_val_non {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one non-contracting axis on each side, the right operand's non-contracting axis reads the
    output's second coordinate. -/
theorem rhsIdx_val_non {nl : Fin sl.rank} {nr : Fin sr.rank} (hlb : d.lhsBatch = []) (hrb : d.rhsBatch = [])
    (hln : d.lhsNonContracting = [nl]) (hn : d.rhsNonContracting = [nr]) (j : so.Idx)
    (k : d.contr.Idx) (h1 : 1 < so.rank) : (d.rhsIdx j k nr).val = (j ⟨1, h1⟩).val := by
  have hnb : nr ∉ d.rhsBatch := by rw [hrb]; exact List.not_mem_nil
  have hmem : nr ∈ d.rhsNonContracting := by rw [hn]; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

end Axes

/-- Rows by columns: an `M × K` by a `K × N` operand, the left contracted on its last axis and the right on its
    first. -/
theorem matmul_10_zero_apply {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 a c) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l0 := lhsIdx_val_non d hlb hln (ix2 a b) ((contrEquiv1 d K hr hs).symm c) Nat.zero_lt_two
  have l1 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 a c := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

/-- A `K × M` left operand contracted on its first axis against an `N × K` right operand contracted on its last. -/
theorem matmul_01_zero_apply {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (prec : Option ContractPrecision) (A : FVec Ideal ⟨2, ![K, M]⟩ φ₁) (B : FVec Ideal ⟨2, ![N, K]⟩ φ₂)
    (a : Fin M) (b : Fin N) :
    matmul (F := Ideal) d prec A B (constant ⟨2, ![M, N]⟩ .f32 0x00000000#32) (ix2 a b)
      = ∑ c : Fin K, A (ix2 c a) * B (ix2 b c) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r1 := (d.rhsIdx_val_of_single hrc (ix2 a b) ((contrEquiv1 d K hr hs).symm c)).trans c2
  have r0 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 b c := by
    funext ax; apply Fin.ext
    match ax with
    | ⟨0, _⟩ => exact r0
    | ⟨1, _⟩ => exact r1
  rw [l2, r2]

/-- Both operands contracted on their first axis: a `K × M` by a `K × N` operand. -/
theorem matmul_00_zero_apply {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (A : FVec Ideal ⟨2, ![K, M]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 c a) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

end Cert.LibDot

end
-- ==== Proof.LibDotNT.lean ====
/-
  A matrix product of an `M × K` operand with an `N × K` operand, BOTH contracted on their last axis (the left operand
  times the transpose of the right one), with no batch axis, into the zero accumulator, read at an entry at the ideal
  values: entry (a, b) is the sum over the shared coordinate `c` of the left operand's entry (a, c) times the right
  operand's entry (b, c). For any dimension numbers record whose axis lists are the stated ones (a printed record
  satisfies each hypothesis by `rfl`). The companion of the three forms of the module it imports.
-/
import proofs.«126104_j77369540870222_1_alg».proof.Proof.LibDot

noncomputable section

open scoped BigOperators

namespace Cert.LibDot

open Idealize.ShloMosaic Idealize.ShloMosaic.ValueIdx

/-- Rows by rows: an `M × K` by an `N × K` operand, each contracted on its last axis. -/
theorem matmul_11_zero_apply {M K N : Nat} {φ₁ φ₂ : FTy} (d : DotDims ⟨2, ![M, K]⟩ ⟨2, ![N, K]⟩ ⟨2, ![M, N]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![M, K]⟩ φ₁) (B : FVec Ideal ⟨2, ![N, K]⟩ φ₂)
    (a : Fin M) (b : Fin N) :
    matmul (F := Ideal) d prec A B (constant ⟨2, ![M, N]⟩ .f32 0x00000000#32) (ix2 a b)
      = ∑ c : Fin K, A (ix2 a c) * B (ix2 b c) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l0 := lhsIdx_val_non d hlb hln (ix2 a b) ((contrEquiv1 d K hr hs).symm c) Nat.zero_lt_two
  have l1 := (d.lhsIdx_val_of_single hlc (ix2 a b) ((contrEquiv1 d K hr hs).symm c)).trans c2
  have r0 := rhsIdx_val_non d hlb hrb hln hrn (ix2 a b) ((contrEquiv1 d K hr hs).symm c) Nat.one_lt_two
  have r1 := (d.rhsIdx_val_of_single hrc (ix2 a b) ((contrEquiv1 d K hr hs).symm c)).trans c2
  have l2 : d.lhsIdx (ix2 a b) ((contrEquiv1 d K hr hs).symm c) = ix2 a c := by
    funext ax; apply Fin.ext
    match ax with
    | ⟨0, _⟩ => exact l0
    | ⟨1, _⟩ => exact l1
  have r2 : d.rhsIdx (ix2 a b) ((contrEquiv1 d K hr hs).symm c) = ix2 b c := by
    funext ax; apply Fin.ext
    match ax with
    | ⟨0, _⟩ => exact r0
    | ⟨1, _⟩ => exact r1
  rw [l2, r2]

end Cert.LibDot

end
-- ==== Proof.Pay.lean ====
/-
  What the kernel's body computes, entry by entry, over the extended reals.

  The body reads four blocks: 512 rows of features `x0`, 1280 rows of weights `x1`, a column `x2` of 512 squared
  norms and a row `x3` of 1280 squared norms. Entry (r, q) of what it stores is the radial kernel value of
  `x2 (r, 0)`, `x3 (0, q)` and the inner product of row r of `x0` with row q of `x1`: the change of format before the
  matrix product is the identity, the product into the zero accumulator is the sum over the shared axis, and the
  two norm blocks are spread along the other axis.
-/
import proofs.«126104_j77369540870222_1_alg».proof.Proof.Gen.KernelIdeal.Skeleton
import proofs.«126104_j77369540870222_1_alg».proof.Proof.Spec
import proofs.«126104_j77369540870222_1_alg».proof.Proof.LibDotNT
import Idealize.ShloMosaic.Lib.Pipeline.Value
import Idealize.ShloMosaic.Lib.ValueLayout

noncomputable section

open scoped BigOperators

namespace Cert.KernelIdeal.Pay

open Cert.KernelIdeal Cert.KernelIdeal.Gen
open Idealize.ShloMosaic Idealize.ShloMosaic.ValueIdx

/-- A column spread along a new second axis: an `[a, 1]` array broadcast to `[a, b]` reads, at `(p, c)`, the
    operand's row `p` at its only column. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The matrix product of the two reformatted operands into the zero accumulator, at entry (r, q): the inner product
    of row r of the features with row q of the weights (the change of format is the identity on the extended reals). -/
theorem cross_apply (x0 : Vec Ideal S512x512 .f32) (x1 : Vec Ideal S1280x512 .f32) (r : Fin 512) (q : Fin 1280) :
    matmul (F := Ideal) dot_S512x512_S1280x512_S512x1280_1_1_0_0_n_n none
        (truncf .bf16 x0 bitsLt_bf16_f32 : FVec Ideal S512x512 .bf16)
        (truncf .bf16 x1 bitsLt_bf16_f32 : FVec Ideal S1280x512 .bf16)
        (constant (F := Ideal) S512x1280 .f32 0x00000000#32) (ix2 r q)
      = Cert.Spec.crossRow x0 x1 r q :=
  Cert.LibDot.matmul_11_zero_apply dot_S512x512_S1280x512_S512x1280_1_1_0_0_n_n rfl rfl rfl rfl rfl rfl none _ _ r q

/-- The column of squared norms, recast to its own shape and spread along the second axis, at (r, q). -/
theorem col_apply (x2 : Vec Ideal S512x1 .f32) (r : Fin 512) (q : Fin 1280) :
    broadcastTo S512x1280 (shapeCast S512x1 x2 shapeCasts_S512x1_S512x1) broadcasts_S512x1_S512x1280 (ix2 r q)
      = x2 (ix2 r (0 : Fin 1)) := by
  rw [shapeCast_self]
  exact broadcastTo_a1_ab_apply x2 broadcasts_S512x1_S512x1280 r q

/-- The row of squared norms, recast to its own shape and spread along the first axis, at (r, q). -/
theorem row_apply (x3 : Vec Ideal S1x1280 .f32) (r : Fin 512) (q : Fin 1280) :
    broadcastTo S512x1280 (shapeCast S1x1280 x3 shapeCasts_S1x1280_S1x1280) broadcasts_S1x1280_S512x1280 (ix2 r q)
      = x3 (ix2 (0 : Fin 1) q) := by
  rw [shapeCast_self]
  exact broadcastTo_1b_ab_apply x3 broadcasts_S1x1280_S512x1280 r q

/-- Entry (r, q) of the stored block. -/
theorem pay_apply (x0 : Vec Ideal S512x512 .f32) (x1 : Vec Ideal S1280x512 .f32) (x2 : Vec Ideal S512x1 .f32)
    (x3 : Vec Ideal S1x1280 .f32) (r : Fin 512) (q : Fin 1280) :
    k0_pay1 (F := Ideal) x0 x1 x2 x3 (ix2 r q)
      = Cert.Spec.rbf (x2 (ix2 r (0 : Fin 1))) (x3 (ix2 (0 : Fin 1) q)) (Cert.Spec.crossRow x0 x1 r q) := by
  unfold k0_pay1 Cert.Spec.rbf
  rw [← cross_apply x0 x1 r q, ← col_apply x2 r q, ← row_apply x3 r q]
  rfl

end Cert.KernelIdeal.Pay

end
-- ==== Proof.Dat.lean ====
/-
  The idealized kernel program's run, with every staging buffer's contents named.

  The grid has 8 × 8 points; point t = 8·j + i works on feature rows 512·i … 512·i + 511 and weight rows
  1280·j … 1280·j + 1279. Eight weight blocks of 1280 rows are 10240 rows and the array has 10000: at j = 7 the fetch of
  the weights (and of the row of their squared norms) is cut to the 1040 rows (columns) inside the array, and the rest
  of the staging buffer holds words nothing names; likewise the two results' write-backs are cut to 1040 columns.

  What the body leaves at point t: the feature block and its column of norms as fetched; the weight buffer and the
  norm row as fetched, their tails filled out with a word this proof picks and nothing reads; and in both result
  buffers the body's block of those four. The body really finds OTHER tails than the picked ones, but over the extended
  reals entry (r, q) of the body's block reads only row q of the weight buffer and entry q of the norm row, and every
  column q that a write-back moves is a row (an entry) the fetch filled from the array: on the part the transfers move,
  the block does not depend on the tails. That is all the obligation of a cut window asks.
-/
import proofs.«126104_j77369540870222_1_alg».proof.Proof.Body
import proofs.«126104_j77369540870222_1_alg».proof.Proof.Pay
import proofs.«126104_j77369540870222_1_alg».proof.Proof.Gen.KernelIdeal.Frame

set_option maxRecDepth 16384

noncomputable section

open scoped BigOperators

namespace Cert.KernelIdeal.Run

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The blocks -/

/-- The feature block of point `t`: 512 whole rows. -/
abbrev fblk (c : Dev nD) (t : Fin cfg0.N) : Vec Ideal S512x512 .f32 := iblk m c 0 t
/-- Their squared norms, a column. -/
abbrev f2blk (c : Dev nD) (t : Fin cfg0.N) : Vec Ideal S512x1 .f32 := iblk m c 2 t
/-- The weight buffer after the fetch of point `t`'s block, its tail past the array's end filled with zero. -/
def wbuf (c : Dev nD) (t : Fin cfg0.N) : Vec Ideal S1280x512 .f32 :=
  win0_1.fill (grid0.coords t) (fun _ => Scalar.ofBits (F := Ideal) .f32 0#32) (iblk m c 1 t)
/-- The row of the weights' squared norms likewise. -/
def nbuf (c : Dev nD) (t : Fin cfg0.N) : Vec Ideal S1x1280 .f32 :=
  win0_3.fill (grid0.coords t) (fun _ => Scalar.ofBits (F := Ideal) .f32 0#32) (iblk m c 3 t)
/-- The body's block of those four. -/
def obuf (c : Dev nD) (t : Fin cfg0.N) : Vec Ideal S512x1280 .f32 :=
  k0_pay1 (F := Ideal) (fblk m c t) (wbuf m c t) (f2blk m c t) (nbuf m c t)

/-! ## The proof data -/

/-- The arrays as the region finds them; after the body each input buffer as fetched (cut ones filled out with zero),
    both result buffers at the body's block; the class's invariant; nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => wbuf m c t
    | ⟨2, _⟩ => iblk m c 2 t
    | ⟨3, _⟩ => nbuf m c t
    | ⟨4, _⟩ => obuf m c t
    | ⟨5, _⟩ => obuf m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = wbuf m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = nbuf m c t := by dsimp only [dats]
theorem after0_4 (c : Dev nD) (t : Fin cfg0.N) : (dats m 0 c).after 4 t = obuf m c t := by dsimp only [dats]
theorem after0_5 (c : Dev nD) (t : Fin cfg0.N) : (dats m 0 c).after 5 t = obuf m c t := by dsimp only [dats]

/-- What a fetch reads is the block as the region finds the array. -/
theorem blockOf_eq (c : Dev nD) (w : Fin cfg0.W) (t : Fin cfg0.N) : (dats m 0 c).blockOf w t = iblk m c w t := by
  unfold Dat.blockOf iblk; rw [A_eq]

/-! ## What the body finds -/

/-- The feature block, fetched at every point. -/
theorem before0_0 (c : Dev nD) (t : Fin cfg0.N) (d) : (dats m 0 c).before 0 t d = iblk m c 0 t :=
  before0_0_of m (dats m 0 c) (A_eq m c 0) (after0_0 m c) t d
theorem before0_2 (c : Dev nD) (t : Fin cfg0.N) (d) : (dats m 0 c).before 2 t d = iblk m c 2 t :=
  before0_2_of m (dats m 0 c) (A_eq m c 2) (after0_2 m c) t d

/-- The weights' cut at a point is a function of their block index there. -/
theorem clip0_1 (t t' : Fin cfg0.N) (h : (cfg0.win 1).index t = (cfg0.win 1).index t') :
    (cfg0.win 1).clip (cfg0.grid.coords t) = (cfg0.win 1).clip (cfg0.grid.coords t') := by
  funext a
  show Pipeline.Clip.of ((cfg0.win 1).index t a) _ _ = Pipeline.Clip.of ((cfg0.win 1).index t' a) _ _
  rw [h]
theorem clip0_3 (t t' : Fin cfg0.N) (h : (cfg0.win 3).index t = (cfg0.win 3).index t') :
    (cfg0.win 3).clip (cfg0.grid.coords t) = (cfg0.win 3).clip (cfg0.grid.coords t') := by
  funext a
  show Pipeline.Clip.of ((cfg0.win 3).index t a) _ _ = Pipeline.Clip.of ((cfg0.win 3).index t' a) _ _
  rw [h]

/-- The weight buffer holds, at every point, what a fetch there puts in it: the block index moves only every eighth
    point, and in between the body has left the buffer as it found it. -/
theorem before0_1 (c : Dev nD) (t : Fin cfg0.N) (d) :
    (dats m 0 c).before 1 t d = win0_1.fill (grid0.coords t) d (iblk m c 1 t) := by
  rw [(dats m 0 c).before_in_eq_fetched 1 rfl (fun _ => rfl) clip0_1
    (fun t => by rw [after0_1, blockOf_eq]; exact win0_1.cut_fill _ _ _) t d]
  unfold Dat.fetched; rw [blockOf_eq]
theorem before0_3 (c : Dev nD) (t : Fin cfg0.N) (d) :
    (dats m 0 c).before 3 t d = win0_3.fill (grid0.coords t) d (iblk m c 3 t) := by
  rw [(dats m 0 c).before_in_eq_fetched 3 rfl (fun _ => rfl) clip0_3
    (fun t => by rw [after0_3, blockOf_eq]; exact win0_3.cut_fill _ _ _) t d]
  unfold Dat.fetched; rw [blockOf_eq]

/-- A result buffer comes back from its write-back (there is one at every point) at contents nothing names. -/
theorem before0_4 (c : Dev nD) (t : Fin cfg0.N) (d) : (dats m 0 c).before 4 t d = d :=
  (dats m 0 c).before_out_reset 4 rfl t
    (by by_cases h : t.val = 0
        · exact .inl h
        · exact .inr ⟨h, flush0_4 _⟩) d
theorem before0_5 (c : Dev nD) (t : Fin cfg0.N) (d) : (dats m 0 c).before 5 t d = d :=
  (dats m 0 c).before_out_reset 5 rfl t
    (by by_cases h : t.val = 0
        · exact .inl h
        · exact .inr ⟨h, flush0_5 _⟩) d

/-! ## The body's block does not read the tails -/

/-- How far each cut window's transfers reach at a point: the results' columns, the weights' rows and the norm row's
    entries are cut alike, and nothing else is cut. -/
theorem xsizes (t : Fin cfg0.N) :
    win0_1.xsize (grid0.coords t) 0 = win0_4.xsize (grid0.coords t) 1 ∧ win0_1.xsize (grid0.coords t) 1 = 512
    ∧ win0_3.xsize (grid0.coords t) 0 = 1 ∧ win0_3.xsize (grid0.coords t) 1 = win0_4.xsize (grid0.coords t) 1
    ∧ win0_5.xsize (grid0.coords t) 1 = win0_4.xsize (grid0.coords t) 1 :=
  (by decide +kernel : ∀ t : Fin grid0.N,
    win0_1.xsize (grid0.coords t) 0 = win0_4.xsize (grid0.coords t) 1 ∧ win0_1.xsize (grid0.coords t) 1 = 512
    ∧ win0_3.xsize (grid0.coords t) 0 = 1 ∧ win0_3.xsize (grid0.coords t) 1 = win0_4.xsize (grid0.coords t) 1
    ∧ win0_5.xsize (grid0.coords t) 1 = win0_4.xsize (grid0.coords t) 1) t

/-- Two fills of one block agree wherever the transfer moves. -/
theorem fill_agree {G : Pipeline.Grid} (w : Window sig G) {α : Type} (i : G.Coords) (d d' : w.block.Idx → α)
    (g : (w.xblock i).Idx → α) (j : w.block.Idx) (h : w.moved i j = true) : w.fill i d g j = w.fill i d' g j := by
  unfold Window.fill; rw [dif_pos h, dif_pos h]

/-- Entry (r, q) of the body's block, for a column q the write-back moves, is the same whatever fills the tails of
    the weight buffer and of the norm row. -/
theorem pay_tail_free (t : Fin cfg0.N) (x0 : Vec Ideal S512x512 .f32) (x2 : Vec Ideal S512x1 .f32)
    (g1 : (win0_1.xblock (grid0.coords t)).Idx → Elt Ideal .f32) (g3 : (win0_3.xblock (grid0.coords t)).Idx → Elt Ideal .f32)
    (d1 d1' : S1280x512.Idx → Elt Ideal .f32) (d3 d3' : S1x1280.Idx → Elt Ideal .f32)
    (r : Fin 512) (q : Fin 1280) (hq : q.val < win0_4.xsize (grid0.coords t) 1) :
    k0_pay1 (F := Ideal) x0 (win0_1.fill (grid0.coords t) d1 g1) x2 (win0_3.fill (grid0.coords t) d3 g3) (ix2 r q)
      = k0_pay1 (F := Ideal) x0 (win0_1.fill (grid0.coords t) d1' g1) x2 (win0_3.fill (grid0.coords t) d3' g3) (ix2 r q) := by
  obtain ⟨h10, h11, h30, h31, -⟩ := xsizes t
  rw [Pay.pay_apply, Pay.pay_apply]
  have e3 : win0_3.fill (grid0.coords t) d3 g3 (ix2 (0 : Fin 1) q) = win0_3.fill (grid0.coords t) d3' g3 (ix2 (0 : Fin 1) q) :=
    fill_agree win0_3 _ d3 d3' g3 _ ((win0_3.moved_iff _ _).mpr fun a => by
      match a with
      | ⟨0, _⟩ => show (0 : Nat) < win0_3.xsize (grid0.coords t) 0; rw [h30]; exact Nat.one_pos
      | ⟨1, _⟩ => show q.val < win0_3.xsize (grid0.coords t) 1; rw [h31]; exact hq)
  have e1 : ∀ k : Fin 512, win0_1.fill (grid0.coords t) d1 g1 (ix2 q k) = win0_1.fill (grid0.coords t) d1' g1 (ix2 q k) :=
    fun k => fill_agree win0_1 _ d1 d1' g1 _ ((win0_1.moved_iff _ _).mpr fun a => by
      match a with
      | ⟨0, _⟩ => show q.val < win0_1.xsize (grid0.coords t) 0; rw [h10]; exact hq
      | ⟨1, _⟩ => show k.val < win0_1.xsize (grid0.coords t) 1; rw [h11]; exact k.isLt)
  rw [e3]
  refine congrArg (Cert.Spec.rbf _ _) ?_
  unfold Cert.Spec.crossRow
  exact Finset.sum_congr rfl fun k _ => by rw [e1 k]

/-- So the part of the body's block a result's write-back moves is that of the named block. -/
theorem cut_pay_4 (c : Dev nD) (t : Fin cfg0.N) (d1 : S1280x512.Idx → Elt Ideal .f32) (d3 : S1x1280.Idx → Elt Ideal .f32) :
    win0_4.cut (grid0.coords t) (k0_pay1 (F := Ideal) (fblk m c t) (win0_1.fill (grid0.coords t) d1 (iblk m c 1 t)) (f2blk m c t)
        (win0_3.fill (grid0.coords t) d3 (iblk m c 3 t)))
      = win0_4.cut (grid0.coords t) (obuf m c t) := by
  funext j
  show k0_pay1 (F := Ideal) _ _ _ _ (win0_4.xinj (grid0.coords t) j) = obuf m c t (win0_4.xinj (grid0.coords t) j)
  unfold obuf wbuf nbuf
  rw [eq_ix2 (win0_4.xinj (grid0.coords t) j)]
  exact pay_tail_free t _ _ _ _ _ _ _ _ ⟨(j 0).val, Nat.lt_of_lt_of_le (j 0).isLt (win0_4.xsize_le _ 0)⟩
    ⟨(j 1).val, Nat.lt_of_lt_of_le (j 1).isLt (win0_4.xsize_le _ 1)⟩ (j 1).isLt
theorem cut_pay_5 (c : Dev nD) (t : Fin cfg0.N) (d1 : S1280x512.Idx → Elt Ideal .f32) (d3 : S1x1280.Idx → Elt Ideal .f32) :
    win0_5.cut (grid0.coords t) (k0_pay1 (F := Ideal) (fblk m c t) (win0_1.fill (grid0.coords t) d1 (iblk m c 1 t)) (f2blk m c t)
        (win0_3.fill (grid0.coords t) d3 (iblk m c 3 t)))
      = win0_5.cut (grid0.coords t) (obuf m c t) := by
  funext j
  show k0_pay1 (F := Ideal) _ _ _ _ (win0_5.xinj (grid0.coords t) j) = obuf m c t (win0_5.xinj (grid0.coords t) j)
  unfold obuf wbuf nbuf
  rw [eq_ix2 (win0_5.xinj (grid0.coords t) j)]
  exact pay_tail_free t _ _ _ _ _ _ _ _ ⟨(j 0).val, Nat.lt_of_lt_of_le (j 0).isLt (win0_5.xsize_le _ 0)⟩
    ⟨(j 1).val, Nat.lt_of_lt_of_le (j 1).isLt (win0_5.xsize_le _ 1)⟩ ((xsizes t).2.2.2.2 ▸ (j 1).isLt)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns: an uncut window's buffer at what the body leaves, a cut window's at that on the part its
    transfers move and at anything elsewhere. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare
        ((cfg0.win 1).fill (cfg0.grid.coords t) d ((cfg0.win 1).cut (cfg0.grid.coords t) ((dats m 0 c).after 1 t))))
    ∗ owns (c : Thread nD τ) (st0_2 t) fullShare ((dats m 0 c).after 2 t)
    ∗ (∃ d, owns (c : Thread nD τ) (st0_3 t) fullShare
        ((cfg0.win 3).fill (cfg0.grid.coords t) d ((cfg0.win 3).cut (cfg0.grid.coords t) ((dats m 0 c).after 3 t))))
    ∗ (∃ d, owns (c : Thread nD τ) (st0_4 t) fullShare
        ((cfg0.win 4).fill (cfg0.grid.coords t) d ((cfg0.win 4).cut (cfg0.grid.coords t) ((dats m 0 c).after 4 t))))
    ∗ (∃ d, owns (c : Thread nD τ) (st0_5 t) fullShare
        ((cfg0.win 5).fill (cfg0.grid.coords t) d ((cfg0.win 5).cut (cfg0.grid.coords t) ((dats m 0 c).after 5 t)))))

/-- The body at any point. The inputs arrive as fetched, the cut ones with some tail `d`; the body leaves them so,
    which on the moved part is what the proof data names; it leaves in both result buffers its block of what it found,
    which on the moved part is the named block (`cut_pay_4`, `cut_pay_5`). -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (Body.sound_kernel (F := Ideal) c Set.univ (grid0.coords t) _ _ _ _ _ _ _ _ _ _ _ _
    (fblk m c t) (win0_1.fill (grid0.coords t) d1 (iblk m c 1 t)) (f2blk m c t) (win0_3.fill (grid0.coords t) d3 (iblk m c 3 t)) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]
  · iexists d1
    rw [show (cfg0.win 1).cut (cfg0.grid.coords t) (wbuf m c t) = iblk m c 1 t from win0_1.cut_fill _ _ _]
    iexact H1
  isplitl [H2]; · iexact H2
  isplitl [H3]
  · iexists d3
    rw [show (cfg0.win 3).cut (cfg0.grid.coords t) (nbuf m c t) = iblk m c 3 t from win0_3.cut_fill _ _ _]
    iexact H3
  isplitl [H4]
  · iexists k0_pay1 (F := Ideal) (fblk m c t) (win0_1.fill (grid0.coords t) d1 (iblk m c 1 t)) (f2blk m c t)
      (win0_3.fill (grid0.coords t) d3 (iblk m c 3 t))
    rw [win0_4.fill_congr_cut (grid0.coords t) (cut_pay_4 m c t d1 d3)]
    iexact H4
  · iexists k0_pay1 (F := Ideal) (fblk m c t) (win0_1.fill (grid0.coords t) d1 (iblk m c 1 t)) (f2blk m c t)
      (win0_3.fill (grid0.coords t) d3 (iblk m c 3 t))
    rw [win0_5.fill_congr_cut (grid0.coords t) (cut_pay_5 m c t d1 d3)]
    iexact H5

/-- The library's body obligation in the form a configuration with cut windows takes, at every point. -/
theorem body_obligation (c : Dev nD) : BodyObligationLoose (dats m 0 c) (defs₀ (F := Ideal)) Variants.none () Set.univ := fun t => by
  rw [bigSep_W0, bigSep_W0]
  exact sound_body m c t

/-! ## The run and the frame -/

set_option backward.isDefEq.respectTransparency.types false in
/-- Every weakly fair execution of the program terminates, and every final state has each array of the pipeline at
    what the library computes from the proof data and every other unscoped buffer as the region found it. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The program runs to the end, faults nowhere and leaves its three arguments as they were. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Run

end
-- ==== Proof.Value.lean ====
/-
  Both result arrays of the idealized kernel program end holding the target function of the two float arguments.

  Point t = 8·j + i writes back, through each result window, the block of rows 512·i … and columns 1280·j … (cut to the
  1040 columns inside the array when j = 7). Entry (r, q) of that block is the scalar formula of three numbers: entry r
  of the column of feature norms the point fetched, which is the squared norm of feature row 512·i + r (the host
  computed the column as a row sum of squares and the point fetched rows 512·i …); entry q of the row of weight norms,
  likewise the squared norm of weight row 1280·j + q (for every column q the write-back moves, the fetch filled that
  entry from the array); and the inner product of feature row 512·i + r with weight row 1280·j + q. That is entry
  (512·i + r, 1280·j + q) of the target function. Every entry of a result array lies in exactly the block of the point
  (row / 512, column / 1280), so the blocks written back make up the whole array.
-/
import proofs.«126104_j77369540870222_1_alg».proof.Proof.Dat
import proofs.«126104_j77369540870222_1_alg».proof.Proof.Gen.ReferenceIdeal.Read
import Idealize.ShloMosaic.Lib.StableHlo.Run
import Idealize.ShloMosaic.Lib.Pipeline.Value

set_option maxRecDepth 16384

noncomputable section

open scoped BigOperators

namespace Cert.KernelIdeal.Final

open Cert.KernelIdeal Cert.KernelIdeal.Gen Cert.KernelIdeal.Run
open Idealize.ShloMosaic Idealize.ShloMosaic.TcCoe Idealize.ShloMosaic.ValueIdx Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg)

/-- The features as launched. -/
abbrev xarr (c : Dev nD) : S4096x512.Idx → Elt Ideal .f32 := m ((c : Thread nD τ).loc main_arg0)
/-- The weights as launched. -/
abbrev warr (c : Dev nD) : S10000x512.Idx → Elt Ideal .f32 := m ((c : Thread nD τ).loc main_arg2)
/-- The target function of the two. -/
abbrev Gout (c : Dev nD) : S4096x10000.Idx → Elt Ideal .f32 := Cert.Spec.G (xarr m c) (warr m c)

/-! ## The two norm arrays the host computes before the region -/

/-- The column of feature norms as the region finds it is the host's row sum of squares, spread to a column. -/
theorem V_v2 (c : Dev nD) : (V m c main_v2 : S4096x1.Idx → Elt Ideal .f32)
    = Cert.ReferenceIdeal.Read.val_main_v2 (F := Ideal) (xarr m c) := by
  dsimp only [V, hostOps0]; after_results; rfl
/-- The row of weight norms likewise. -/
theorem V_v5 (c : Dev nD) : (V m c main_v5 : S1x10000.Idx → Elt Ideal .f32)
    = Cert.ReferenceIdeal.Read.val_main_v5 (F := Ideal) (warr m c) := by
  dsimp only [V, hostOps0]; after_results; rfl

/-- Entry b of the column is the squared norm of feature row b. -/
theorem norm_x (c : Dev nD) (i : S4096x1.Idx) (b : Fin 4096) (h : (i 0).val = b.val) :
    (V m c main_v2 : S4096x1.Idx → Elt Ideal .f32) i = Cert.Spec.sqRow (xarr m c) b := by
  refine (congrFun (V_v2 m c) i).trans ?_
  rw [Cert.ReferenceIdeal.Read.val_main_v2_apply, Cert.ReferenceIdeal.Read.val_main_v1_apply,
    Cert.ReferenceIdeal.Read.val_main_cst_apply]
  unfold Cert.Spec.sqRow
  refine congrArg (_ + ·) (Finset.sum_congr rfl fun k _ => ?_)
  have e : Cert.ReferenceIdeal.Read.idx_main_v1 (Cert.ReferenceIdeal.Read.idx_main_v2 i) k = ix2 b k :=
    funext fun a => Fin.ext (by match a with | ⟨0, _⟩ => exact h | ⟨1, _⟩ => rfl)
  rw [Cert.ReferenceIdeal.Read.val_main_v0_apply, e]; rfl
/-- Entry cc of the row is the squared norm of weight row cc. -/
theorem norm_w (c : Dev nD) (i : S1x10000.Idx) (cc : Fin 10000) (h : (i 1).val = cc.val) :
    (V m c main_v5 : S1x10000.Idx → Elt Ideal .f32) i = Cert.Spec.sqRow (warr m c) cc := by
  refine (congrFun (V_v5 m c) i).trans ?_
  rw [Cert.ReferenceIdeal.Read.val_main_v5_apply, Cert.ReferenceIdeal.Read.val_main_v4_apply,
    Cert.ReferenceIdeal.Read.val_main_cst_0_apply]
  unfold Cert.Spec.sqRow
  refine congrArg (_ + ·) (Finset.sum_congr rfl fun k _ => ?_)
  have e : Cert.ReferenceIdeal.Read.idx_main_v4 (Cert.ReferenceIdeal.Read.idx_main_v5 i) k = ix2 cc k :=
    funext fun a => Fin.ext (by match a with | ⟨0, _⟩ => exact h | ⟨1, _⟩ => rfl)
  rw [Cert.ReferenceIdeal.Read.val_main_v3_apply, e]; rfl

/-! ## The index maps, decided over the grid -/

/-- Every window's block index at a point in terms of the first result window's: the features and their norms move with
    its rows, the weights and their norms with its columns, the second result window with both; a row block index is at
    most 7 and whole, a column block ends at the block's end or at the array's, whichever comes first. -/
theorem idx_facts : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = win0_4.index t (0 : Fin 2) ∧ win0_2.index t (1 : Fin 2) = 0
    ∧ win0_3.index t (0 : Fin 2) = 0 ∧ win0_3.index t (1 : Fin 2) = win0_4.index t (1 : Fin 2)
    ∧ win0_5.index t (0 : Fin 2) = win0_4.index t (0 : Fin 2) ∧ win0_5.index t (1 : Fin 2) = win0_4.index t (1 : Fin 2)
    ∧ win0_4.index t (0 : Fin 2) ≤ 7 ∧ win0_4.index t (1 : Fin 2) ≤ 7
    ∧ win0_4.xsize (grid0.coords t) 0 = 512
    ∧ win0_4.index t (1 : Fin 2) * 1280 + win0_4.xsize (grid0.coords t) 1 = min ((win0_4.index t (1 : Fin 2) + 1) * 1280) 10000
    ∧ win0_5.xsize (grid0.coords t) 0 = 512
    ∧ win0_5.xsize (grid0.coords t) 1 = win0_4.xsize (grid0.coords t) 1 :=
  (by decide +kernel : ∀ t : Fin grid0.N, _)

/-- Every pair of a row block and a column block is some point's. -/
theorem idx_onto : ∀ (q0 : Fin 8) (q1 : Fin 8), ∃ t : Fin cfg0.N, win0_4.index t = ![q0.val, q1.val] :=
  (by decide +kernel : ∀ (q0 : Fin 8) (q1 : Fin 8), ∃ t : Fin grid0.N, win0_4.index t = ![q0.val, q1.val])

/-! ## The blocks read at an entry -/

/-- Entry (r, k) of the feature block of point `t` is the features' entry (b, k), b the block's first row plus r. -/
theorem fblk_apply (c : Dev nD) (t : Fin cfg0.N) (r k : Fin 512) (b : Fin 4096)
    (hb : b.val = win0_4.index t (0 : Fin 2) * 512 + r.val) : fblk m c t (ix2 r k) = xarr m c (ix2 b k) := by
  obtain ⟨e00, e01, -⟩ := idx_facts t
  show V m c main_arg0 (((cfg0.win 0).blk t).view.emb (ix2 r k)) = _
  rw [V_main_arg0]
  refine congrArg (m ((c : Thread nD τ).loc main_arg0)) (funext fun a => Fin.ext ?_)
  match a with
  | ⟨0, _⟩ => show win0_0.index t (0 : Fin 2) * 512 + 1 * r.val = b.val; omega
  | ⟨1, _⟩ => show win0_0.index t (1 : Fin 2) * 512 + 1 * k.val = k.val; omega

/-- Entry (q, k) of the weight buffer of point `t`, for a row q the fetch filled, is the weights' entry (cc, k). -/
theorem wbuf_apply (c : Dev nD) (t : Fin cfg0.N) (q : Fin 1280) (k : Fin 512) (hq : q.val < win0_4.xsize (grid0.coords t) 1)
    (cc : Fin 10000) (hc : cc.val = win0_4.index t (1 : Fin 2) * 1280 + q.val) : wbuf m c t (ix2 q k) = warr m c (ix2 cc k) := by
  obtain ⟨-, -, e10, e11, -⟩ := idx_facts t
  obtain ⟨h10, h11, -⟩ := xsizes t
  have hm : win0_1.moved (grid0.coords t) (ix2 q k) = true := (win0_1.moved_iff _ _).mpr fun a => by
    match a with
    | ⟨0, _⟩ => show q.val < win0_1.xsize (grid0.coords t) 0; rw [h10]; exact hq
    | ⟨1, _⟩ => show k.val < win0_1.xsize (grid0.coords t) 1; rw [h11]; exact k.isLt
  unfold wbuf Window.fill
  rw [dif_pos hm]
  show V m c main_arg2 (((cfg0.win 1).blk t).view.emb _) = _
  rw [V_main_arg2]
  refine congrArg (m ((c : Thread nD τ).loc main_arg2)) (funext fun a => Fin.ext ?_)
  match a with
  | ⟨0, _⟩ => show win0_1.index t (0 : Fin 2) * 1280 + 1 * q.val = cc.val; omega
  | ⟨1, _⟩ => show win0_1.index t (1 : Fin 2) * 512 + 1 * k.val = k.val; omega

/-- Entry (r, 0) of the block of feature norms is the squared norm of feature row b. -/
theorem f2blk_apply (c : Dev nD) (t : Fin cfg0.N) (r : Fin 512) (b : Fin 4096)
    (hb : b.val = win0_4.index t (0 : Fin 2) * 512 + r.val) :
    f2blk m c t (ix2 r (0 : Fin 1)) = Cert.Spec.sqRow (xarr m c) b := by
  obtain ⟨-, -, -, -, e20, e21, -⟩ := idx_facts t
  show (V m c main_v2 : S4096x1.Idx → Elt Ideal .f32) (((cfg0.win 2).blk t).view.emb (ix2 r (0 : Fin 1))) = _
  exact norm_x m c _ b (by show win0_2.index t (0 : Fin 2) * 512 + 1 * r.val = b.val; omega)

/-- Entry (0, q) of the norm row's buffer, for an entry q the fetch filled, is the squared norm of weight row cc. -/
theorem nbuf_apply (c : Dev nD) (t : Fin cfg0.N) (q : Fin 1280) (hq : q.val < win0_4.xsize (grid0.coords t) 1)
    (cc : Fin 10000) (hc : cc.val = win0_4.index t (1 : Fin 2) * 1280 + q.val) :
    nbuf m c t (ix2 (0 : Fin 1) q) = Cert.Spec.sqRow (warr m c) cc := by
  obtain ⟨-, -, -, -, -, -, e30, e31, -⟩ := idx_facts t
  obtain ⟨-, -, h30, h31, -⟩ := xsizes t
  have hm : win0_3.moved (grid0.coords t) (ix2 (0 : Fin 1) q) = true := (win0_3.moved_iff _ _).mpr fun a => by
    match a with
    | ⟨0, _⟩ => show (0 : Nat) < win0_3.xsize (grid0.coords t) 0; rw [h30]; exact Nat.one_pos
    | ⟨1, _⟩ => show q.val < win0_3.xsize (grid0.coords t) 1; rw [h31]; exact hq
  unfold nbuf Window.fill
  rw [dif_pos hm]
  show (V m c main_v5 : S1x10000.Idx → Elt Ideal .f32) (((cfg0.win 3).blk t).view.emb _) = _
  exact norm_w m c _ cc (by show win0_3.index t (1 : Fin 2) * 1280 + 1 * q.val = cc.val; omega)

/-- Entry (r, q) of the block both result buffers hold after point `t`, for a column q the write-back moves, is the
    target function's entry (b, cc). -/
theorem obuf_apply (c : Dev nD) (t : Fin cfg0.N) (r : Fin 512) (q : Fin 1280) (hq : q.val < win0_4.xsize (grid0.coords t) 1)
    (b : Fin 4096) (cc : Fin 10000) (hb : b.val = win0_4.index t (0 : Fin 2) * 512 + r.val)
    (hc : cc.val = win0_4.index t (1 : Fin 2) * 1280 + q.val) :
    obuf m c t (ix2 r q) = Gout m c (ix2 b cc) := by
  unfold obuf
  rw [Pay.pay_apply]
  show _ = Cert.Spec.G (xarr m c) (warr m c) (ix2 b cc)
  rw [Cert.Spec.G_ix2, f2blk_apply m c t r b hb, nbuf_apply m c t q hq cc hc]
  refine congrArg (Cert.Spec.rbf _ _) ?_
  unfold Cert.Spec.crossRow
  exact Finset.sum_congr rfl fun k _ => by rw [fblk_apply m c t r k b hb, wbuf_apply m c t q k hq cc hc]

/-! ## From blocks to the arrays -/

/-- What point `t` writes back through result window 4 is block `t` of the target function of the two float arguments. -/
theorem flushed4_eq (c : Dev nD) (t : Fin cfg0.N) :
    (dats m 0 c).flushed 4 t = ((cfg0.win 4).blk t).view.read (Elt Ideal) (Gout m c) := by
  show (cfg0.win 4).cut (grid0.coords t) ((dats m 0 c).after 4 t) = _
  rw [after0_4]
  obtain ⟨-, -, -, -, -, -, -, -, e50, e51, h0, h1, hx0, hx1, hx50, hx51⟩ := idx_facts t
  funext j
  have hj0 : (j 0).val < win0_4.xsize (grid0.coords t) 0 := (j 0).isLt
  have hj1 : (j 1).val < win0_4.xsize (grid0.coords t) 1 := (j 1).isLt
  have hx : win0_4.xinj (grid0.coords t) j
      = ix2 (⟨(j 0).val, Nat.lt_of_lt_of_le (j 0).isLt (win0_4.xsize_le _ 0)⟩ : Fin 512)
          (⟨(j 1).val, Nat.lt_of_lt_of_le (j 1).isLt (win0_4.xsize_le _ 1)⟩ : Fin 1280) :=
    funext fun a => by match a with | ⟨0, _⟩ => rfl | ⟨1, _⟩ => rfl
  have he : ((cfg0.win 4).blk t).view.emb j
      = ix2 (⟨win0_4.index t (0 : Fin 2) * 512 + (j 0).val, by omega⟩ : Fin 4096)
          (⟨win0_4.index t (1 : Fin 2) * 1280 + (j 1).val, by omega⟩ : Fin 10000) := by
    funext a; apply Fin.ext
    match a with
    | ⟨0, _⟩ => show win0_4.index t (0 : Fin 2) * 512 + 1 * (j 0).val = win0_4.index t (0 : Fin 2) * 512 + (j 0).val; omega
    | ⟨1, _⟩ => show win0_4.index t (1 : Fin 2) * 1280 + 1 * (j 1).val = win0_4.index t (1 : Fin 2) * 1280 + (j 1).val; omega
  show obuf m c t (win0_4.xinj (grid0.coords t) j) = Gout m c (((cfg0.win 4).blk t).view.emb j)
  rw [hx, he]
  exact obuf_apply m c t _ _ (by show (j 1).val < _; omega) _ _ rfl rfl

/-- An index of the result array is in point `t`'s block iff each coordinate is in the block's range, cut at the array's end. -/
theorem mem_blk4 (t : Fin cfg0.N) (i : S4096x10000.Idx) :
    i ∈ ((cfg0.win 4).blk t).view.set ↔ ∀ a : Fin 2, win0_4.index t a * S512x1280.size a ≤ (i a).val
      ∧ (i a).val < win0_4.index t a * S512x1280.size a + win0_4.xsize (grid0.coords t) a := by
  show i ∈ ((View.whole main_v6_0).slice (win0_4.rect t)).set ↔ _
  rw [View.set_slice_whole, Rect.mem_set_unit]
  exact Iff.rfl

/-- Every entry of the result array is written by the point whose block holds it: row block `row / 512`, column block
    `column / 1280` (the last column block being the 1040 columns that are left). -/
theorem cover4 (i : S4096x10000.Idx) :
    ∃ t : Fin cfg0.N, (cfg0.win 4).flush t = true ∧ i ∈ ((cfg0.win 4).blk t).view.set := by
  have hi0 : (i 0).val < 4096 := (i 0).isLt
  have hi1 : (i 1).val < 10000 := (i 1).isLt
  obtain ⟨t, ht⟩ := idx_onto ⟨(i 0).val / 512, by omega⟩ ⟨(i 1).val / 1280, by omega⟩
  have q0 : win0_4.index t (0 : Fin 2) = (i 0).val / 512 := congrFun ht 0
  have q1 : win0_4.index t (1 : Fin 2) = (i 1).val / 1280 := congrFun ht 1
  obtain ⟨-, -, -, -, -, -, -, -, e50, e51, h0, h1, hx0, hx1, hx50, hx51⟩ := idx_facts t
  refine ⟨t, flush0_4 t, ?_⟩
  rw [mem_blk4]
  intro a
  match a with
  | ⟨0, _⟩ =>
    show win0_4.index t (0 : Fin 2) * 512 ≤ (i 0).val ∧ (i 0).val < win0_4.index t (0 : Fin 2) * 512 + win0_4.xsize (grid0.coords t) 0
    omega
  | ⟨1, _⟩ =>
    show win0_4.index t (1 : Fin 2) * 1280 ≤ (i 1).val ∧ (i 1).val < win0_4.index t (1 : Fin 2) * 1280 + win0_4.xsize (grid0.coords t) 1
    omega

/-- The result array after the run is the target function of the two float arguments. -/
theorem final4 (c : Dev nD) : (dats m 0 c).arrAt 4 cfg0.N = Gout m c :=
  (dats m 0 c).arrAt_eq_of_cover 4 (Gout m c) (fun t _ => flushed4_eq m c t) cover4

/-- What point `t` writes back through result window 5 is block `t` of the target function of the two float arguments. -/
theorem flushed5_eq (c : Dev nD) (t : Fin cfg0.N) :
    (dats m 0 c).flushed 5 t = ((cfg0.win 5).blk t).view.read (Elt Ideal) (Gout m c) := by
  show (cfg0.win 5).cut (grid0.coords t) ((dats m 0 c).after 5 t) = _
  rw [after0_5]
  obtain ⟨-, -, -, -, -, -, -, -, e50, e51, h0, h1, hx0, hx1, hx50, hx51⟩ := idx_facts t
  funext j
  have hj0 : (j 0).val < win0_5.xsize (grid0.coords t) 0 := (j 0).isLt
  have hj1 : (j 1).val < win0_5.xsize (grid0.coords t) 1 := (j 1).isLt
  have hx : win0_5.xinj (grid0.coords t) j
      = ix2 (⟨(j 0).val, Nat.lt_of_lt_of_le (j 0).isLt (win0_5.xsize_le _ 0)⟩ : Fin 512)
          (⟨(j 1).val, Nat.lt_of_lt_of_le (j 1).isLt (win0_5.xsize_le _ 1)⟩ : Fin 1280) :=
    funext fun a => by match a with | ⟨0, _⟩ => rfl | ⟨1, _⟩ => rfl
  have he : ((cfg0.win 5).blk t).view.emb j
      = ix2 (⟨win0_4.index t (0 : Fin 2) * 512 + (j 0).val, by omega⟩ : Fin 4096)
          (⟨win0_4.index t (1 : Fin 2) * 1280 + (j 1).val, by omega⟩ : Fin 10000) := by
    funext a; apply Fin.ext
    match a with
    | ⟨0, _⟩ => show win0_5.index t (0 : Fin 2) * 512 + 1 * (j 0).val = win0_4.index t (0 : Fin 2) * 512 + (j 0).val; omega
    | ⟨1, _⟩ => show win0_5.index t (1 : Fin 2) * 1280 + 1 * (j 1).val = win0_4.index t (1 : Fin 2) * 1280 + (j 1).val; omega
  show obuf m c t (win0_5.xinj (grid0.coords t) j) = Gout m c (((cfg0.win 5).blk t).view.emb j)
  rw [hx, he]
  exact obuf_apply m c t _ _ (by show (j 1).val < _; omega) _ _ rfl rfl

/-- An index of the result array is in point `t`'s block iff each coordinate is in the block's range, cut at the array's end. -/
theorem mem_blk5 (t : Fin cfg0.N) (i : S4096x10000.Idx) :
    i ∈ ((cfg0.win 5).blk t).view.set ↔ ∀ a : Fin 2, win0_5.index t a * S512x1280.size a ≤ (i a).val
      ∧ (i a).val < win0_5.index t a * S512x1280.size a + win0_5.xsize (grid0.coords t) a := by
  show i ∈ ((View.whole main_v6_1).slice (win0_5.rect t)).set ↔ _
  rw [View.set_slice_whole, Rect.mem_set_unit]
  exact Iff.rfl

/-- Every entry of the result array is written by the point whose block holds it: row block `row / 512`, column block
    `column / 1280` (the last column block being the 1040 columns that are left). -/
theorem cover5 (i : S4096x10000.Idx) :
    ∃ t : Fin cfg0.N, (cfg0.win 5).flush t = true ∧ i ∈ ((cfg0.win 5).blk t).view.set := by
  have hi0 : (i 0).val < 4096 := (i 0).isLt
  have hi1 : (i 1).val < 10000 := (i 1).isLt
  obtain ⟨t, ht⟩ := idx_onto ⟨(i 0).val / 512, by omega⟩ ⟨(i 1).val / 1280, by omega⟩
  have q0 : win0_4.index t (0 : Fin 2) = (i 0).val / 512 := congrFun ht 0
  have q1 : win0_4.index t (1 : Fin 2) = (i 1).val / 1280 := congrFun ht 1
  obtain ⟨-, -, -, -, -, -, -, -, e50, e51, h0, h1, hx0, hx1, hx50, hx51⟩ := idx_facts t
  refine ⟨t, flush0_5 t, ?_⟩
  rw [mem_blk5]
  intro a
  match a with
  | ⟨0, _⟩ =>
    show win0_5.index t (0 : Fin 2) * 512 ≤ (i 0).val ∧ (i 0).val < win0_5.index t (0 : Fin 2) * 512 + win0_5.xsize (grid0.coords t) 0
    omega
  | ⟨1, _⟩ =>
    show win0_5.index t (1 : Fin 2) * 1280 ≤ (i 1).val ∧ (i 1).val < win0_5.index t (1 : Fin 2) * 1280 + win0_5.xsize (grid0.coords t) 1
    omega

/-- The result array after the run is the target function of the two float arguments. -/
theorem final5 (c : Dev nD) : (dats m 0 c).arrAt 5 cfg0.N = Gout m c :=
  (dats m 0 c).arrAt_eq_of_cover 5 (Gout m c) (fun t _ => flushed5_eq m c t) cover5

/-! ## The run, read -/

/-- Every weakly fair execution of the idealized kernel program terminates with both float results at the target function
    of the float arguments, and the arguments unchanged. -/
theorem run : θ_run defs (onTc (τ := τ) (main (F := Ideal))) ⟨m, fun _ => 0, ρ⟩ fun r => ∀ c : Dev nD,
      r.2.mem ((c.tc : Thread nD τ).loc main_v6_0) = Gout m c
      ∧ r.2.mem ((c.tc : Thread nD τ).loc main_v6_1) = Gout m c
      ∧ r.2.mem ((c.tc : Thread nD τ).loc main_arg2) = m ((c.tc : Thread nD τ).loc main_arg2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    have a0 := ((h c).1 0).trans (((dats m 0 c).arrAt_in 0 rfl _).trans ((A_eq m c 0).trans (V_main_arg0 m c)))
    have a1 := ((h c).2 main_arg1 (Pipeline.mem_restRefs_of main_arg1 (by decide) (by decide))).trans (V_main_arg1 m c)
    have a2 := ((h c).1 1).trans (((dats m 0 c).arrAt_in 1 rfl _).trans ((A_eq m c 1).trans (V_main_arg2 m c)))
    ⟨((h c).1 4).trans (final4 m c), ((h c).1 5).trans (final5 m c), a2, a0, a1, a2⟩) (run_main m ρ)

end Cert.KernelIdeal.Final

end
-- ==== Proof.RefValue.lean ====
/-
  The reference program computes the target function.

  Read one operation at a time, the reference's two float results are, entry by entry: one times the exponential of κ
  times the maximum of ((row sum of squares of x) + (row sum of squares of w) − 2 · (the matrix product's entry)) and
  zero. The matrix product's entry (b, c) is the sum over the shared coordinate of x (b, k) · w (c, k); each row sum
  starts from the zero pattern; the closing factor one is the unit of the product. That is the target function.
-/
import proofs.«126104_j77369540870222_1_alg».proof.Proof.Gen.ReferenceIdeal.Run
import proofs.«126104_j77369540870222_1_alg».proof.Proof.Gen.ReferenceIdeal.Read
import proofs.«126104_j77369540870222_1_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx

/-- Entry (b, c) of the left row sum, traced back through the two broadcasts, reads row b of the squares at column k. -/
theorem idx_left (b : Fin 4096) (c : Fin 10000) (k : Fin 512) :
    idx_main_v1 (idx_main_v2 (idx_main_v7 (ix2 b c))) k = ix2 b k :=
  funext fun a => Fin.ext (by match a with | ⟨0, _⟩ => rfl | ⟨1, _⟩ => rfl)

/-- Entry (b, c) of the right row sum, traced back through the two broadcasts, reads row c of the squares at column k. -/
theorem idx_right (b : Fin 4096) (c : Fin 10000) (k : Fin 512) :
    idx_main_v4 (idx_main_v5 (idx_main_v8 (ix2 b c))) k = ix2 c k :=
  funext fun a => Fin.ext (by match a with | ⟨0, _⟩ => rfl | ⟨1, _⟩ => rfl)

/-- Term k of entry (b, c) of the matrix product reads x at (b, k). -/
theorem lidx_at (b : Fin 4096) (c : Fin 10000) (k : Fin 512) :
    lidx_main_v6 (ix2 b c) k = ix2 b k :=
  funext fun a => Fin.ext (by match a with | ⟨0, _⟩ => rfl | ⟨1, _⟩ => rfl)

/-- Term k of entry (b, c) of the matrix product reads w at (c, k). -/
theorem ridx_at (b : Fin 4096) (c : Fin 10000) (k : Fin 512) :
    ridx_main_v6 (ix2 b c) k = ix2 c k :=
  funext fun a => Fin.ext (by match a with | ⟨0, _⟩ => rfl | ⟨1, _⟩ => rfl)

/-- The exponential stage at entry (b, c) is the scalar formula of row b of x and row c of w. -/
theorem v17_ix2 (x0 : (⟨S4096x512, .f32⟩ : BufTy).Contents (Elt Ideal)) (x2 : (⟨S10000x512, .f32⟩ : BufTy).Contents (Elt Ideal))
    (b : Fin 4096) (c : Fin 10000) :
    val_main_v17 (F := Ideal) x0 x2 (ix2 b c)
      = Cert.Spec.rbf (Cert.Spec.sqRow x0 b) (Cert.Spec.sqRow x2 c) (Cert.Spec.crossRow x0 x2 b c) := by
  rw [val_main_v17_apply, val_main_v16_apply, val_main_v15_apply, val_main_cst_3_apply, val_main_v14_apply,
    val_main_v12_apply, val_main_v13_apply, val_main_cst_2_apply, val_main_v9_apply, val_main_v11_apply,
    val_main_v7_apply, val_main_v2_apply, val_main_v1_apply, val_main_cst_apply,
    val_main_v8_apply, val_main_v5_apply, val_main_v4_apply, val_main_cst_0_apply,
    val_main_v10_apply, val_main_cst_1_apply, val_main_v6_apply]
  simp only [val_main_v0_apply, val_main_v3_apply, idx_left, idx_right, lidx_at, ridx_at,
    Ideal.mulf_def, Ideal.addf_def, Ideal.subf_def, Ideal.maximumf_def, Ideal.hostUnary_exp_def, Ideal.ofBits_def]
  rfl

/-- The first result is the target function of the two float arguments. -/
theorem v19_eq (x0 : (⟨S4096x512, .f32⟩ : BufTy).Contents (Elt Ideal)) (x2 : (⟨S10000x512, .f32⟩ : BufTy).Contents (Elt Ideal)) :
    val_main_v19 (F := Ideal) x0 x2 = Cert.Spec.G x0 x2 := by
  funext i
  obtain ⟨b, c, rfl⟩ : ∃ (b : Fin 4096) (c : Fin 10000), i = ix2 b c := ⟨i 0, i 1, eq_ix2 i⟩
  rw [val_main_v19_apply, val_main_v18_apply, val_main_cst_4_apply, v17_ix2, Cert.Spec.G_ix2,
    Ideal.mulf_def, Ideal.ofBits_def, Cert.Spec.ofBits_one32, one_mul]

/-- So is the second. -/
theorem v21_eq (x0 : (⟨S4096x512, .f32⟩ : BufTy).Contents (Elt Ideal)) (x2 : (⟨S10000x512, .f32⟩ : BufTy).Contents (Elt Ideal)) :
    val_main_v21 (F := Ideal) x0 x2 = Cert.Spec.G x0 x2 := by
  funext i
  obtain ⟨b, c, rfl⟩ : ∃ (b : Fin 4096) (c : Fin 10000), i = ix2 b c := ⟨i 0, i 1, eq_ix2 i⟩
  rw [val_main_v21_apply, val_main_v20_apply, val_main_cst_5_apply, v17_ix2, Cert.Spec.G_ix2,
    Ideal.mulf_def, Ideal.ofBits_def, Cert.Spec.ofBits_one32, one_mul]

end Cert.ReferenceIdeal.RefValue

end
-- ==== Proof.lean ====
/-
  Radial kernel values of 4096 feature rows against 10000 weight rows: the tiled kernel equals the plain reference
  over the extended reals.

  Both programs compute, for feature row b and weight row c, exp (κ · max ((‖x_b‖² + ‖w_c‖²) − 2 · ⟨x_b, w_c⟩) 0) with the
  same three float literals, twice, and hand back the weights. The kernel program computes the two arrays of squared
  norms on the host and then visits an 8 × 8 grid of blocks (512 feature rows by 1280 weight rows); its matrix product
  works on operands narrowed to sixteen bits, which over the extended reals is no change, and contracts the shared
  axis of 512 coordinates, as the reference's product does. The reference multiplies its result by the literal one.

  Ten thousand weight rows are not a whole number of blocks of 1280: the last weight block, the last block of weight
  norms and the last column block of each result overhang their arrays by 240, and the transfers are cut there. The cut
  axis is the weights' ROW axis, which the product does not contract, so the unnamed tail of a cut input buffer reaches
  only result columns that no write-back moves.

  The three frames: the reference's is its run with the results dropped; the idealized kernel's comes with its run,
  every staging buffer named on the part the transfers move; the word-level kernel's, where the product is an
  uninterpreted function of its whole operands and the result buffers therefore cannot be named, says nothing of any
  staging buffer and needs nothing of them. The idealization rewrote no operation, so there is nothing to preserve.
  The two idealized runs end with both float results at one and the same function of the arguments.
-/
import proofs.«126104_j77369540870222_1_alg».proof.Defs
import proofs.«126104_j77369540870222_1_alg».proof.Proof.Gen.Kernel
import proofs.«126104_j77369540870222_1_alg».proof.Proof.Gen.KernelIdeal
import proofs.«126104_j77369540870222_1_alg».proof.Proof.Gen.ReferenceIdeal
import proofs.«126104_j77369540870222_1_alg».proof.Proof.Gen.Pre_finite_inputs
import proofs.«126104_j77369540870222_1_alg».proof.Proof.Gen.ReferenceIdeal.Run
import proofs.«126104_j77369540870222_1_alg».proof.Proof.Gen.ReferenceIdeal.Read
import proofs.«126104_j77369540870222_1_alg».proof.Proof.FrameBits
import proofs.«126104_j77369540870222_1_alg».proof.Proof.Value
import proofs.«126104_j77369540870222_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_k : Cert.frame_Kernel := fun m ρ _ => Cert.Kernel.FrameBits.frame (F := Bits) m ρ

/-- So does the idealized one. -/
theorem frame_ki : Cert.frame_KernelIdeal := fun m ρ _ => Cert.KernelIdeal.Run.frame m ρ

/-- The reference's frame is its run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- Both idealized programs end with both float results at the target function of the float arguments, and with the
    weights as the third result. -/
theorem algebraic : Cert.algebraic_KernelIdeal_ReferenceIdeal := by
  intro m ρ m' ρ' _ hagree
  refine ⟨fun c => Cert.KernelIdeal.Final.Gout m c, fun c => Cert.KernelIdeal.Final.Gout m c,
    fun c => m ((c.tc : Thread Cert.KernelIdeal.nD Cert.KernelIdeal.τ).loc Cert.KernelIdeal.main_arg2),
    Cert.KernelIdeal.Final.run m ρ, ?_⟩
  refine (θ_run Cert.ReferenceIdeal.defs _ _).mono (fun _ h c => ⟨(h c).1.trans ?_, (h c).2.1.trans ?_, (h c).2.2.1.trans ?_, (h c).2.2.2⟩)
    (Cert.ReferenceIdeal.Value.run (F := Ideal) m' ρ')
  · rw [(hagree c).1, (hagree c).2.2]
    exact (Cert.ReferenceIdeal.Read.val_main_v19_eq _ _).trans (Cert.ReferenceIdeal.RefValue.v19_eq _ _)
  · rw [(hagree c).1, (hagree c).2.2]
    exact (Cert.ReferenceIdeal.Read.val_main_v21_eq _ _).trans (Cert.ReferenceIdeal.RefValue.v21_eq _ _)
  · exact (hagree c).2.2

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
